-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16 : Shape := ⟨2, ![4096, 16]⟩
abbrev S4112x768 : Shape := ⟨2, ![4112, 768]⟩
abbrev S768x1024 : Shape := ⟨2, ![768, 1024]⟩
abbrev S1024 : Shape := ⟨1, ![1024]⟩
abbrev S1024x1024 : Shape := ⟨2, ![1024, 1024]⟩
abbrev S16x1024 : Shape := ⟨2, ![16, 1024]⟩
abbrev S_ : Shape := ⟨0, ![]⟩

class Facts : Prop where
  bcast_S_S4112x768 : S_.BroadcastsInDim S4112x768 (![] : Fin 0 → Fin S4112x768.rank)
  reducesTo_S4112x768_S_d0_1 : S4112x768.ReducesTo [0, 1] S_
  h_S_ : 0 < S_.numel
  bcast_S_S768x1024 : S_.BroadcastsInDim S768x1024 (![] : Fin 0 → Fin S768x1024.rank)
  reducesTo_S768x1024_S_d0_1 : S768x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S16x1024 : S_.BroadcastsInDim S16x1024 (![] : Fin 0 → Fin S16x1024.rank)
  reducesTo_S16x1024_S_d0_1 : S16x1024.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_arg0 : IVec S4096x16 32) (main_v32 : IVec S_ 1) (main_c_12 : IVec S_ 32) : IVec S_ 1 :=
  let main_v33 : IVec S4096x16 32 := broadcastInDim S4096x16 ![] bcast_S_S4096x16 main_c_12
  let main_v34 : IVec S4096x16 1 := cmpi .sle main_arg0 main_v33
  let main_c_13 : IVec S_ 1 := constantI S_ 1 1#1
  let main_v35 : IVec S_ 1 := (fun x v => Host.reduce IntOp.andi x v reducesTo_S4096x16_S_d0_1 h_S_) main_v34 main_c_13
  let main_v36 : IVec S_ 1 := andi main_v32 main_v35
  main_v36

def fn_part1 {F : FTy → Type} [FloatOps F] (main_arg0 : IVec S4096x16 32) (main_arg5 : FVec F S1024 .f32) (main_arg6 : FVec F S16x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S16x1024 .f32 := Host.absf main_arg6
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_c_10 : IVec S_ 32 := constantI S_ 32 0#32
  let main_v29 : IVec S4096x16 32 := broadcastInDim S4096x16 ![] bcast_S_S4096x16 main_c_10
  let main_v30 : IVec S4096x16 1 := cmpi .sge main_arg0 main_v29
  let main_c_11 : IVec S_ 1 := constantI S_ 1 1#1
  let main_v31 : IVec S_ 1 := (fun x v => Host.reduce IntOp.andi x v reducesTo_S4096x16_S_d0_1 h_S_) main_v30 main_c_11
  let main_v32 : IVec S_ 1 := andi main_v28 main_v31
  let main_c_12 : IVec S_ 32 := constantI S_ 32 256#32
  fn_part2 (F := F) main_arg0 main_v32 main_c_12

def fn {F : FTy → Type} [FloatOps F] (main_arg0 : IVec S4096x16 32) (main_arg1 : FVec F S4112x768 .f32) (main_arg2 : FVec F S768x1024 .f32) (main_arg3 : FVec F S1024 .f32) (main_arg4 : FVec F S1024x1024 .f32) (main_arg5 : FVec F S1024 .f32) (main_arg6 : FVec F S16x1024 .f32) : IVec S_ 1 :=
  let main_v0 : FVec F S4112x768 .f32 := Host.absf main_arg1
  let main_cst : FVec F S_ .f32 := constant S_ .f32 0x7F800000#32
  let main_v1 : FVec F S4112x768 .f32 := broadcastInDim S4112x768 ![] bcast_S_S4112x768 main_cst
  let main_v2 : IVec S4112x768 1 := cmpf .olt main_v0 main_v1
  let main_c : IVec S_ 1 := constantI S_ 1 1#1
  let main_v3 : IVec S_ 1 := (fun x v => Host.reduce IntOp.andi x v reducesTo_S4112x768_S_d0_1 h_S_) main_v2 main_c
  let main_v4 : FVec F S768x1024 .f32 := Host.absf main_arg2
  let main_cst_0 : FVec F S_ .f32 := constant S_ .f32 0x7F800000#32
  let main_v5 : FVec F S768x1024 .f32 := broadcastInDim S768x1024 ![] bcast_S_S768x1024 main_cst_0
  let main_v6 : IVec S768x1024 1 := cmpf .olt main_v4 main_v5
  let main_c_1 : IVec S_ 1 := constantI S_ 1 1#1
  let main_v7 : IVec S_ 1 := (fun x v => Host.reduce IntOp.andi x v reducesTo_S768x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg0 main_arg5 main_arg6 main_v13 main_v16
-- ==== Kernel.lean ====
abbrev S4096x16 : Shape := ⟨2, ![4096, 16]⟩
abbrev S4112x768 : Shape := ⟨2, ![4112, 768]⟩
abbrev S768x1024 : Shape := ⟨2, ![768, 1024]⟩
abbrev S1024 : Shape := ⟨1, ![1024]⟩
abbrev S1024x1024 : Shape := ⟨2, ![1024, 1024]⟩
abbrev S16x1024 : Shape := ⟨2, ![16, 1024]⟩
abbrev S16x4096 : Shape := ⟨2, ![16, 4096]⟩
abbrev S16x32x128 : Shape := ⟨3, ![16, 32, 128]⟩
abbrev S16x257x768 : Shape := ⟨3, ![16, 257, 768]⟩
abbrev S_ : Shape := ⟨0, ![]⟩
abbrev S16x384x768 : Shape := ⟨3, ![16, 384, 768]⟩
abbrev S16x1x1024 : Shape := ⟨3, ![16, 1, 1024]⟩
abbrev S4096x16384 : Shape := ⟨2, ![4096, 16384]⟩
abbrev S1x8x128 : Shape := ⟨3, ![1, 8, 128]⟩
abbrev S1x384x768 : Shape := ⟨3, ![1, 384, 768]⟩
abbrev S1x1x1024 : Shape := ⟨3, ![1, 1, 1024]⟩
abbrev S8x128 : Shape := ⟨2, ![8, 128]⟩
abbrev S8x128x384 : Shape := ⟨3, ![8, 128, 384]⟩
abbrev S8x128x1 : Shape := ⟨3, ![8, 128, 1]⟩
abbrev S1024x384 : Shape := ⟨2, ![1024, 384]⟩
abbrev S384x768 : Shape := ⟨2, ![384, 768]⟩
abbrev S1024x768 : Shape := ⟨2, ![1024, 768]⟩
abbrev S1x1024 : Shape := ⟨2, ![1, 1024]⟩
abbrev S4096x16x1024 : Shape := ⟨3, ![4096, 16, 1024]⟩

abbrev nBuf : Space → Nat
  | .hbm => 19
  | .vmem => 12
  | .smem => 0
  | _ => 0

abbrev bufTy : (tb : Table) → Fin (tcTables nBuf tb) → BufTy
  | .hbm, ⟨0, _⟩ => ⟨S4096x16, .i32⟩
  | .hbm, ⟨1, _⟩ => ⟨S4112x768, .f32⟩
  | .hbm, ⟨2, _⟩ => ⟨S768x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S16x1024, .f32⟩
  | .hbm, ⟨7, _⟩ => ⟨S16x4096, .i32⟩
  | .hbm, ⟨8, _⟩ => ⟨S16x32x128, .i32⟩
  | .hbm, ⟨9, _⟩ => ⟨S16x257x768, .f32⟩
  | .hbm, ⟨10, _⟩ => ⟨S_, .i32⟩
  | .hbm, ⟨11, _⟩ => ⟨S_, .f32⟩
  | .hbm, ⟨12, _⟩ => ⟨S16x384x768, .f32⟩
  | .hbm, ⟨13, _⟩ => ⟨S16x384x768, .bf16⟩
  | .hbm, ⟨14, _⟩ => ⟨S768x1024, .bf16⟩
  | .hbm, ⟨15, _⟩ => ⟨S1024x1024, .bf16⟩
  | .hbm, ⟨16, _⟩ => ⟨S16x1x1024, .f32⟩
  | .hbm, ⟨17, _⟩ => ⟨S4096x16384, .f32⟩
  | .hbm, ⟨18, _⟩ => ⟨S4096x16x1024, .f32⟩
  | .local _ .vmem, ⟨0, _⟩ => ⟨S1x8x128, .i32⟩
  | .local _ .vmem, ⟨1, _⟩ => ⟨S1x8x128, .i32⟩
  | .local _ .vmem, ⟨2, _⟩ => ⟨S1x384x768, .bf16⟩
  | .local _ .vmem, ⟨3, _⟩ => ⟨S1x384x768, .bf16⟩
  | .local _ .vmem, ⟨4, _⟩ => ⟨S1x1x1024, .f32⟩
  | .local _ .vmem, ⟨5, _⟩ => ⟨S1x1x1024, .f32⟩
  | .local _ .vmem, ⟨6, _⟩ => ⟨S768x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | _, _ => ⟨S4096x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S4096x16_S16x4096_1_0 : S4096x16.Transposes [1, 0] S16x4096
  shapeCasts_S16x4096_S16x32x128 : S16x4096.ShapeCasts S16x32x128
  shapeCasts_S4112x768_S16x257x768 : S4112x768.ShapeCasts S16x257x768
  pads_S16x257x768_S16x384x768_000_01270_000 : S16x257x768.Pads (![0, 0, 0] : Fin 3 → Nat) ![0, 127, 0] ![0, 0, 0] S16x384x768
  h_S_ : 0 < S_.numel
  bitsLt_bf16_f32 : FTy.bits .bf16 < FTy.bits .f32
  shapeCasts_S16x1024_S16x1x1024 : S16x1024.ShapeCasts S16x1x1024
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  iota_S8x128x384_d2_w32 : S8x128x384.Iotas .tc 32 [2]
  shapeCasts_S8x128_S8x128x1 : S8x128.ShapeCasts S8x128x1
  broadcasts_S8x128x1_S8x128x384 : S8x128x1.Broadcasts S8x128x384
  natLt_1_32 : 1 < 32
  shapeCasts_S8x128x384_S1024x384 : S8x128x384.ShapeCasts S1024x384
  inb_S1x384x768_S1x384x768_0_0_0 : ∀ a, (![0, 0, 0] : Fin 3 → Nat) a + S1x384x768.size a ≤ S1x384x768.size a
  h_S1x384x768 : 0 < S1x384x768.numel
  shapeCasts_S1x384x768_S384x768 : S1x384x768.ShapeCasts S384x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S4096x16384_S4096x16x1024 : S4096x16384.ShapeCasts S4096x16x1024
  dot_S1024x384_S384x768_S1024x768_1_0_0_1_n_n_wf : DotDims.WF S1024x384 S384x768 S1024x768 [1] [0] [0] [1] [] []
  dot_S1024x768_S768x1024_S1024x1024_1_0_0_1_n_n_wf : DotDims.WF S1024x768 S768x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x128.size a ≤ S16x32x128.size a
  hwx0_0 : ∀ i : grid0.Coords, EltTy.bits .i32 = 32 ∨ (Rect.block (s := S16x32x128) S1x8x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x384x768.size a ≤ S16x384x768.size a
  hwx0_1 : ∀ i : grid0.Coords, EltTy.bits .bf16 = 32 ∨ (Rect.block (s := S16x384x768) S1x384x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x1024.size a
  hwx0_2 : ∀ i : grid0.Coords, EltTy.bits .f32 = 32 ∨ (Rect.block (s := S16x1x1024) S1x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1024.size a ≤ S768x1024.size a
  hwx0_3 : ∀ i : grid0.Coords, EltTy.bits .bf16 = 32 ∨ (Rect.block (s := S768x1024) S768x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S4096x16384.size a
  hwx0_7 : ∀ i : grid0.Coords, EltTy.bits .f32 = 32 ∨ (Rect.block (s := S4096x16384) S1024x1024.size (cc0_transform_7 i) (hinb0_7 i)).WholeWords (EltTy.packing .f32)

variable [Facts₀]

def dot_S1024x384_S384x768_S1024x768_1_0_0_1_n_n : DotDims S1024x384 S384x768 S1024x768 where
  lhsContracting := [1]
  rhsContracting := [0]
  lhsNonContracting := [0]
  rhsNonContracting := [1]
  lhsBatch := []
  rhsBatch := []
  wf := dot_S1024x384_S384x768_S1024x768_1_0_0_1_n_n_wf
def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x384x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S768x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x16 : Shape := ⟨2, ![4096, 16]⟩
abbrev S4112x768 : Shape := ⟨2, ![4112, 768]⟩
abbrev S768x1024 : Shape := ⟨2, ![768, 1024]⟩
abbrev S1024 : Shape := ⟨1, ![1024]⟩
abbrev S1024x1024 : Shape := ⟨2, ![1024, 1024]⟩
abbrev S16x1024 : Shape := ⟨2, ![16, 1024]⟩
abbrev S16 : Shape := ⟨1, ![16]⟩
abbrev S_ : Shape := ⟨0, ![]⟩
abbrev S1x16 : Shape := ⟨2, ![1, 16]⟩
abbrev S4096x16x1 : Shape := ⟨3, ![4096, 16, 1]⟩
abbrev S4096x16x768 : Shape := ⟨3, ![4096, 16, 768]⟩
abbrev S4096x16x1024 : Shape := ⟨3, ![4096, 16, 1024]⟩
abbrev S1x1x1024 : Shape := ⟨3, ![1, 1, 1024]⟩
abbrev S1x16x1024 : Shape := ⟨3, ![1, 16, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x16, .i32⟩
  | .hbm, ⟨1, _⟩ => ⟨S4112x768, .f32⟩
  | .hbm, ⟨2, _⟩ => ⟨S768x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S16x1024, .f32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S1x16, .i32⟩
  | .hbm, ⟨12, _⟩ => ⟨S4096x16, .i32⟩
  | .hbm, ⟨13, _⟩ => ⟨S4096x16, .i32⟩
  | .hbm, ⟨14, _⟩ => ⟨S_, .i32⟩
  | .hbm, ⟨15, _⟩ => ⟨S4096x16, .i32⟩
  | .hbm, ⟨16, _⟩ => ⟨S4096x16, .i1⟩
  | .hbm, ⟨17, _⟩ => ⟨S_, .i32⟩
  | .hbm, ⟨18, _⟩ => ⟨S4096x16, .i32⟩
  | .hbm, ⟨19, _⟩ => ⟨S4096x16, .i32⟩
  | .hbm, ⟨20, _⟩ => ⟨S4096x16, .i32⟩
  | .hbm, ⟨21, _⟩ => ⟨S4096x16x1, .i32⟩
  | .hbm, ⟨22, _⟩ => ⟨S4096x16x768, .f32⟩
  | .hbm, ⟨23, _⟩ => ⟨S4096x16x1024, .f32⟩
  | .hbm, ⟨24, _⟩ => ⟨S1x1x1024, .f32⟩
  | .hbm, ⟨25, _⟩ => ⟨S4096x16x1024, .f32⟩
  | .hbm, ⟨26, _⟩ => ⟨S4096x16x1024, .f32⟩
  | .hbm, ⟨27, _⟩ => ⟨S_, .f32⟩
  | .hbm, ⟨28, _⟩ => ⟨S4096x16x1024, .f32⟩
  | .hbm, ⟨29, _⟩ => ⟨S4096x16x1024, .f32⟩
  | .hbm, ⟨30, _⟩ => ⟨S4096x16x1024, .f32⟩
  | .hbm, ⟨31, _⟩ => ⟨S1x1x1024, .f32⟩
  | .hbm, ⟨32, _⟩ => ⟨S4096x16x1024, .f32⟩
  | .hbm, ⟨33, _⟩ => ⟨S4096x16x1024, .f32⟩
  | .hbm, ⟨34, _⟩ => ⟨S1x16x1024, .f32⟩
  | .hbm, ⟨35, _⟩ => ⟨S4096x16x1024, .f32⟩
  | .hbm, ⟨36, _⟩ => ⟨S4096x16x1024, .f32⟩
  | _, _ => ⟨S4096x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  bcast_S1024_S1x1x1024_2 : S1024.BroadcastsInDim S1x1x1024 (![2] : Fin 1 → Fin S1x1x1024.rank)
  bcast_S1x1x1024_S4096x16x1024_0_1_2 : S1x1x1024.BroadcastsInDim S4096x16x1024 (![0, 1, 2] : Fin 3 → Fin S4096x16x1024.rank)
  bcast_S_S4096x16x1024 : S_.BroadcastsInDim S4096x16x1024 (![] : Fin 0 → Fin S4096x16x1024.rank)
  bcast_S16x1024_S1x16x1024_1_2 : S16x1024.BroadcastsInDim S1x16x1024 (![1, 2] : Fin 2 → Fin S1x16x1024.rank)
  bcast_S1x16x1024_S4096x16x1024_0_1_2 : S1x16x1024.BroadcastsInDim S4096x16x1024 (![0, 1, 2] : Fin 3 → Fin S4096x16x1024.rank)
  gather_S4112x768_S4096x16x1_S4096x16x768_2_0_n_n_0_2_1768_wf : GatherDims.WF S4112x768 S4096x16x1 S4096x16x768 [2] [0] [] [0] [] 2 ![1, 768]
  dot_S4096x16x768_S768x1024_S4096x16x1024_2_0_01_1_n_n_wf : DotDims.WF S4096x16x768 S768x1024 S4096x16x1024 [2] [0] [0, 1] [1] [] []
  dot_S4096x16x1024_S1024x1024_S4096x16x1024_2_0_01_1_n_n_wf : DotDims.WF S4096x16x1024 S1024x1024 S4096x16x1024 [2] [0] [0, 1] [1] [] []

variable [Facts₀]

def gather_S4112x768_S4096x16x1_S4096x16x768_2_0_n_n_0_2_1768 : GatherDims S4112x768 S4096x16x1 S4096x16x768 where
  offsetDims := [2]
  collapsedSliceDims := [0]
  operandBatchingDims := []
  startIndicesBatchingDims := []
  startIndexMap := [0]
  indexVectorDim := 2
  sliceSizes := ![1, 768]
  wf := gather_S4112x768_S4096x16x1_S4096x16x768_2_0_n_n_0_2_1768_wf
def dot_S4096x16x768_S768x1024_S4096x16x1024_2_0_01_1_n_n : DotDims S4096x16x768 S768x1024 S4096x16x1024 where
  lhsContracting := [2]
  rhsContracting := [0]
  lhsNonContracting := [0, 1]
  rhsNonContracting := [1]
  lhsBatch := []
  rhsBatch := []
  wf := dot_S4096x16x768_S768x1024_S4096x16x1024_2_0_01_1_n_n_wf
def dot_S4096x16x1024_S1024x1024_S4096x16x1024_2_0_01_1_n_n : DotDims S4096x16x1024 S1024x1024 S4096x16x1024 where
  lhsContracting := [2]
  rhsContracting := [0]
  lhsNonContracting := [0, 1]
  rhsNonContracting := [1]
  lhsBatch := []
  rhsBatch := []
  wf := dot_S4096x16x1024_S1024x1024_S4096x16x1024_2_0_01_1_n_n_wf

class Facts : Prop extends Facts₀ where

variable [Facts]
-- ==== Proof.HashRange.lean ====
/-
  What the precondition says about the integer input: every word of `hashes` is a row of a part's own table,
  `0 ≤ hashes (b, p) ≤ 256` read signed, hence at most 256 read unsigned.
-/
import proofs.«402789_j59940563583540_2_alg».proof.Defs
import proofs.«402789_j59940563583540_2_alg».proof.Proof.Gen.Pre_finite_inputs
import Idealize.ShloMosaic.Lib.ReduceAll
import Idealize.ShloMosaic.Lib.ValueIdx

noncomputable section

namespace Cert.HashRange

open Idealize.ShloMosaic Idealize.ShloMosaic.ValueIdx Idealize.SL.Sem

/-- The rank-0 shape has one index. -/
instance : Subsingleton Cert.Pre_finite_inputs.S_.Idx := ⟨fun _ _ => funext fun d => d.elim0⟩

/-- A 32-bit word between 0 and 256 read signed is at most 256 read unsigned: a nonnegative signed reading
    is the unsigned one. -/
theorem toNat_le_of_signed (w : BitVec 32) (h0 : (0#32 : BitVec 32).toInt ≤ w.toInt)
    (h1 : w.toInt ≤ (256#32 : BitVec 32).toInt) : w.toNat ≤ 256 := by
  have hw := w.isLt
  have e0 : (0#32 : BitVec 32).toInt = 0 := by decide
  have e1 : (256#32 : BitVec 32).toInt = 256 := by decide
  rw [e0] at h0
  rw [e1] at h1
  have hi := BitVec.toInt_eq_toNat_cond w
  by_cases hc : 2 * w.toNat < 2 ^ 32
  · rw [if_pos hc] at hi; omega
  · rw [if_neg hc] at hi; omega

/-- Under the precondition every word of the `hashes` argument is at most 256 (unsigned). -/
theorem toNat_le (m : (ℓ : Loc Cert.KernelIdeal.nD Cert.KernelIdeal.τ Cert.KernelIdeal.sig) → Buf (Elt Ideal) ℓ)
    (h : Cert.Pre_KernelIdeal m) (c : Dev Cert.KernelIdeal.nD) (b : Fin 4096) (p : Fin 16) :
    (m ((c.tc : Thread Cert.KernelIdeal.nD Cert.KernelIdeal.τ).loc Cert.KernelIdeal.main_arg0) (ix2 b p)).toNat ≤ 256 := by
  have e := congrFun (h c) ix0
  dsimp only [Cert.Pre_finite_inputs.fn, Cert.Pre_finite_inputs.fn_part1, Cert.Pre_finite_inputs.fn_part2] at e
  -- the last two conjuncts of the conjunction are the two tests over the integer argument
  obtain ⟨e', ele⟩ := IntOp.andi_eq_one.1 e
  obtain ⟨-, ege⟩ := IntOp.andi_eq_one.1 e'
  -- an all-reduction that is 1 had a 1 at every index, in particular at (b, p)
  have hge := Host.reduce_andi_all _ _ _ _ ix0 ege (ix2 b p)
  have hle := Host.reduce_andi_all _ _ _ _ ix0 ele (ix2 b p)
  -- the compared-against vector is a broadcast scalar: at every index it is the scalar
  have hge' : IntOp.cmpi .sge (m ((c.tc : Thread Cert.KernelIdeal.nD Cert.KernelIdeal.τ).loc Cert.KernelIdeal.main_arg0) (ix2 b p)) (0#32) = 1#1 := hge
  have hle' : IntOp.cmpi .sle (m ((c.tc : Thread Cert.KernelIdeal.nD Cert.KernelIdeal.τ).loc Cert.KernelIdeal.main_arg0) (ix2 b p)) (256#32) = 1#1 := hle
  exact toNat_le_of_signed _ (IntOp.cmpi_sge.1 hge') (IntOp.cmpi_sle.1 hle')

end Cert.HashRange

end
-- ==== Proof.PartTableMlp.lean ====
/-
  The function both programs compute, index by index over the extended reals.

  There are 16 parts; part `p` owns rows `257·p … 257·p + 256` of a flat table `emb` of 4112 = 16·257 rows and 768
  columns.  For batch row `b` and part `p` the word `hs (b, p)` names a row of that part's own table, so the row looked up
  in the flat table is `257·p + hs (b, p)`.  The looked-up row is pushed through a two-layer perceptron
  (768 → 1024 with a rectifier, then 1024 → 1024) and the part's positional row is added:

      out (b, p, o) = (Σ_j max (Σ_v emb (257·p + hs (b,p), v) · W1 (v, j) + b1 j) 0 · W2 (j, o)) + b2 o + pe (p, o).
-/
import Idealize.ShloMosaic.PureOps.Ideal
import Idealize.ShloMosaic.Lib.ValueIdx

noncomputable section

open scoped BigOperators

namespace Cert.PartTableMlp

open Idealize.ShloMosaic Idealize.ShloMosaic.ValueIdx

/-- The flat-table row of entry `h` of part `p`: part `p`'s 257 rows start at `257·p`.  (Total by reduction
    modulo the table's height; for `h ≤ 256` nothing is reduced.) -/
def flatRow (h : BitVec 32) (p : Fin 16) : Fin 4112 :=
  ⟨(257 * p.val + h.toNat) % 4112, Nat.mod_lt _ (by decide)⟩

theorem flatRow_val (h : BitVec 32) (p : Fin 16) (hh : h.toNat ≤ 256) :
    (flatRow h p).val = 257 * p.val + h.toNat := by
  have := p.isLt
  show (257 * p.val + h.toNat) % 4112 = _
  exact Nat.mod_eq_of_lt (by omega)

variable (hs : IVec ⟨2, ![4096, 16]⟩ 32) (emb : FVec Ideal ⟨2, ![4112, 768]⟩ .f32)
  (W1 : FVec Ideal ⟨2, ![768, 1024]⟩ .f32) (b1 : FVec Ideal ⟨1, ![1024]⟩ .f32)
  (W2 : FVec Ideal ⟨2, ![1024, 1024]⟩ .f32) (b2 : FVec Ideal ⟨1, ![1024]⟩ .f32)
  (pe : FVec Ideal ⟨2, ![16, 1024]⟩ .f32)

/-- Column `v` of the table row looked up for batch row `b` and part `p`. -/
def looked (b : Fin 4096) (p : Fin 16) (v : Fin 768) : EReal :=
  emb (ix2 (flatRow (hs (ix2 b p)) p) v)

/-- The rectified first layer at hidden unit `j`. -/
def hidden (b : Fin 4096) (p : Fin 16) (j : Fin 1024) : EReal :=
  max ((∑ v : Fin 768, looked hs emb b p v * W1 (ix2 v j)) + b1 (ix1 j)) 0

/-- The result at `(b, p, o)`. -/
def out : FVec Ideal ⟨3, ![4096, 16, 1024]⟩ .f32 := fun i =>
  (∑ j : Fin 1024, hidden hs emb W1 b1 (i 0) (i 1) j * W2 (ix2 j (i 2))) + b2 (ix1 (i 2)) + pe (ix2 (i 1) (i 2))

/-- A sum against an indicator keeps the one selected term: in the extended reals `0 · x = 0` and `1 · x = x` for
    every `x`, infinite ones included, so nothing is asked of the table's entries. -/
theorem sum_indicator_mul {n : Nat} (h : Fin n) (e : Fin n → EReal) :
    (∑ k : Fin n, (if k = h then (1 : EReal) else 0) * e k) = e h := by
  rw [Finset.sum_eq_single h]
  · rw [if_pos rfl, one_mul]
  · intro k _ hk; rw [if_neg hk, zero_mul]
  · intro hh; exact absurd (Finset.mem_univ h) hh

end Cert.PartTableMlp

end
-- ==== Proof.ReferenceValue.lean ====
/-
  The reference's result, read one operation at a time, is the specification `Cert.PartTableMlp.out` of its arguments
  whenever every word of `hashes` is at most 256.
-/
import proofs.«402789_j59940563583540_2_alg».proof.Proof.Gen.ReferenceIdeal.Read
import proofs.«402789_j59940563583540_2_alg».proof.Proof.PartTableMlp
import Idealize.ShloMosaic.Lib.StableHlo.Predicate

noncomputable section

open scoped BigOperators

namespace Cert.ReferenceValue

open Cert.ReferenceIdeal Cert.ReferenceIdeal.Read Idealize.ShloMosaic Idealize.ShloMosaic.ValueIdx
open Idealize.ShloMosaic.StableHlo.Predicate (slt_iff_toNat toInt_eq_toNat_of_lt)
open Cert.PartTableMlp (flatRow flatRow_val)

/-- The word `h + 257·p` for `h ≤ 256`, `p < 16` is the natural number `257·p + h`: nothing wraps. -/
theorem rowWord_toNat (h : BitVec 32) (p : Fin 16) (hh : h.toNat ≤ 256) :
    (IntOp.addi h (IntOp.muli (BitVec.ofNat 32 p.val) 257#32)).toNat = 257 * p.val + h.toNat := by
  have hp := p.isLt
  unfold IntOp.addi IntOp.muli
  rw [BitVec.toNat_add, BitVec.toNat_mul, BitVec.toNat_ofNat]
  show (h.toNat + (p.val % 2 ^ 32 * 257) % 2 ^ 32) % 2 ^ 32 = _
  omega

/-- The reference wraps a negative row index round by the table's height; `h + 257·p` is below `4112 < 2³¹`, hence
    not negative, so the select keeps it and its signed reading is `257·p + h`. -/
theorem rowSelect (h : BitVec 32) (p : Fin 16) (hh : h.toNat ≤ 256) :
    (Scalar.select (IntOp.cmpi .slt (IntOp.addi h (IntOp.muli (BitVec.ofNat 32 p.val) 257#32)) 0#32)
        (IntOp.addi (IntOp.addi h (IntOp.muli (BitVec.ofNat 32 p.val) 257#32)) 4112#32)
        (IntOp.addi h (IntOp.muli (BitVec.ofNat 32 p.val) 257#32))).toInt.toNat = 257 * p.val + h.toNat := by
  have hp := p.isLt
  have hw := rowWord_toNat h p hh
  have hlt : (IntOp.addi h (IntOp.muli (BitVec.ofNat 32 p.val) 257#32)).toNat < 2 ^ 31 := by rw [hw]; omega
  have hc : IntOp.cmpi .slt (IntOp.addi h (IntOp.muli (BitVec.ofNat 32 p.val) 257#32)) 0#32 = 0#1 := by
    apply eq_zero_of_ne_one
    intro h1
    have := (slt_iff_toNat hlt (by decide)).mp h1
    simp at this
  rw [hc, select_zero, toInt_eq_toNat_of_lt hlt, hw]
  rfl

/-- The start index the gather reads for result index `(b, p, ·)`: the selected word of `hashes (b, p)` and part `p`. -/
theorem start_word (x0 : IVec S4096x16 32) (b : Fin 4096) (p : Fin 16) (c : Fin 1) :
    val_main_v11 (F := Ideal) x0 (ix3 b p c) =
      Scalar.select (IntOp.cmpi .slt (IntOp.addi (x0 (ix2 b p)) (IntOp.muli (BitVec.ofNat 32 p.val) 257#32)) 0#32)
        (IntOp.addi (IntOp.addi (x0 (ix2 b p)) (IntOp.muli (BitVec.ofNat 32 p.val) 257#32)) 4112#32)
        (IntOp.addi (x0 (ix2 b p)) (IntOp.muli (BitVec.ofNat 32 p.val) 257#32)) := by
  have hi : idx_main_v11 (ix3 b p c) = ix2 b p := by
    funext a; match a with | ⟨0, _⟩ => rfl | ⟨1, _⟩ => rfl
  rw [val_main_v11_apply, hi, val_main_v10_apply, val_main_v7_apply, val_main_v9_apply, val_main_v5_apply,
    val_main_v6_apply, val_main_v8_apply, val_main_c_0_apply, val_main_c_1_apply,
    val_main_v4_apply, val_main_v3_apply, val_main_v2_apply, val_main_v1_apply, val_main_c_apply, val_main_v0_apply]

/-- THE GATHER READ AT `(b, p, v)`. The table has two axes. Axis 0 is collapsed and is the one axis in the start index
    map: its coordinate is the start index read signed and clamped into `[0, 4112 − 1]`, with no batching and no offset
    part. Axis 1 is an offset axis outside the start index map: start and batching parts are zero and the offset part is
    the result's last coordinate `v`. Under the range hypothesis the clamped signed reading is `257·p + hashes (b, p)`. -/
theorem gather_at (x0 : IVec S4096x16 32) (x1 : FVec Ideal S4112x768 .f32)
    (hr : ∀ (b : Fin 4096) (p : Fin 16), (x0 (ix2 b p)).toNat ≤ 256) (b : Fin 4096) (p : Fin 16) (v : Fin 768) :
    val_main_v12 (F := Ideal) x0 x1 (ix3 b p v) = x1 (ix2 (flatRow (x0 (ix2 b p)) p) v) := by
  have hp := p.isLt
  unfold val_main_v12 Host.gather
  congr 1
  funext a
  refine Fin.ext ?_
  match a with
  | ⟨0, _⟩ =>
    show gather_S4112x768_S4096x16x1_S4096x16x768_2_0_n_n_0_2_1768.start (ix3 b p v) (val_main_v11 (F := Ideal) x0) 0
        + gather_S4112x768_S4096x16x1_S4096x16x768_2_0_n_n_0_2_1768.batchCoord (ix3 b p v) 0
        + gather_S4112x768_S4096x16x1_S4096x16x768_2_0_n_n_0_2_1768.offCoord (ix3 b p v) 0 = (flatRow (x0 (ix2 b p)) p).val
    rw [GatherDims.batchCoord_eq_zero _ _ _ List.not_mem_nil,
      GatherDims.offCoord_eq_zero _ _ _ (fun h => ((GatherDims.mem_sKept _ _).mp h).1 (List.mem_singleton.mpr rfl)),
      Nat.add_zero]
    unfold GatherDims.start
    rw [dif_pos (show (0 : Fin 2) ∈ gather_S4112x768_S4096x16x1_S4096x16x768_2_0_n_n_0_2_1768.startIndexMap from
      List.mem_singleton.mpr rfl)]
    have hsi : gather_S4112x768_S4096x16x1_S4096x16x768_2_0_n_n_0_2_1768.siIdx (ix3 b p v)
        ⟨List.idxOf (0 : Fin 2) gather_S4112x768_S4096x16x1_S4096x16x768_2_0_n_n_0_2_1768.startIndexMap,
          List.idxOf_lt_length_iff.2 (List.mem_singleton.mpr rfl)⟩ = ix3 b p (0 : Fin 1) := by
      funext c; refine Fin.ext ?_
      match c with
      | ⟨0, _⟩ => rfl
      | ⟨1, _⟩ => rfl
      | ⟨2, _⟩ => rfl
    rw [hsi, start_word, rowSelect _ _ (hr b p), flatRow_val _ _ (hr b p)]
    show min (257 * p.val + (x0 (ix2 b p)).toNat) (4112 - 1) = _
    have := hr b p
    omega
  | ⟨1, _⟩ =>
    show gather_S4112x768_S4096x16x1_S4096x16x768_2_0_n_n_0_2_1768.start (ix3 b p v) (val_main_v11 (F := Ideal) x0) 1
        + gather_S4112x768_S4096x16x1_S4096x16x768_2_0_n_n_0_2_1768.batchCoord (ix3 b p v) 1
        + gather_S4112x768_S4096x16x1_S4096x16x768_2_0_n_n_0_2_1768.offCoord (ix3 b p v) 1 = v.val
    rw [GatherDims.batchCoord_eq_zero _ _ _ List.not_mem_nil, Nat.add_zero]
    unfold GatherDims.start GatherDims.offCoord
    rw [dif_neg (show ¬(1 : Fin 2) ∈ gather_S4112x768_S4096x16x1_S4096x16x768_2_0_n_n_0_2_1768.startIndexMap by decide),
      dif_pos (show (1 : Fin 2) ∈ gather_S4112x768_S4096x16x1_S4096x16x768_2_0_n_n_0_2_1768.sKept by decide), Nat.zero_add]
    rfl

/-- The rectified first layer read at `(b, p, j)`: the first contraction runs over the looked-up row's 768 columns, the
    bias is broadcast along the last axis, and the rectifier's constant is the extended real `0`. -/
theorem hidden_at (x0 : IVec S4096x16 32) (x1 : FVec Ideal S4112x768 .f32) (x2 : FVec Ideal S768x1024 .f32)
    (x3 : FVec Ideal S1024 .f32) (hr : ∀ (b : Fin 4096) (p : Fin 16), (x0 (ix2 b p)).toNat ≤ 256)
    (b : Fin 4096) (p : Fin 16) (j : Fin 1024) :
    val_main_v17 (F := Ideal) x0 x1 x2 x3 (ix3 b p j) = Cert.PartTableMlp.hidden x0 x1 x2 x3 b p j := by
  have hl : ∀ k : Fin 768, lidx_main_v13 (ix3 b p j) k = ix3 b p k := fun k => by
    funext a; match a with | ⟨0, _⟩ => rfl | ⟨1, _⟩ => rfl | ⟨2, _⟩ => rfl
  have hrx : ∀ k : Fin 768, ridx_main_v13 (ix3 b p j) k = ix2 k j := fun k => by
    funext a; match a with | ⟨0, _⟩ => rfl | ⟨1, _⟩ => rfl
  have hb : idx_main_v14 (idx_main_v15 (ix3 b p j)) = ix1 j := by
    funext a; match a with | ⟨0, _⟩ => rfl
  rw [val_main_v17_apply, val_main_v16_apply, val_main_v13_apply, val_main_v15_apply, val_main_v14_apply, hb,
    val_main_call0_v0_apply, val_main_call0_cst_apply, Ideal.ofBits_def, Ideal.ofBits_zero_f32,
    Ideal.maximumf_def, Ideal.addf_def]
  unfold Cert.PartTableMlp.hidden Cert.PartTableMlp.looked
  congr 2
  refine Finset.sum_congr rfl fun k _ => ?_
  rw [hl k, hrx k, gather_at x0 x1 hr b p k]

theorem result_eq (x0 : IVec S4096x16 32) (x1 : FVec Ideal S4112x768 .f32) (x2 : FVec Ideal S768x1024 .f32)
    (x3 : FVec Ideal S1024 .f32) (x4 : FVec Ideal S1024x1024 .f32) (x5 : FVec Ideal S1024 .f32)
    (x6 : FVec Ideal S16x1024 .f32) (hr : ∀ (b : Fin 4096) (p : Fin 16), (x0 (ix2 b p)).toNat ≤ 256) :
    Cert.ReferenceIdeal.Read.val_main_v24 (F := Ideal) x0 x1 x2 x3 x4 x5 x6 = Cert.PartTableMlp.out x0 x1 x2 x3 x4 x5 x6 := by
  funext i
  obtain ⟨b, p, o, rfl⟩ : ∃ b p o, i = ix3 b p o := ⟨i 0, i 1, i 2, eq_ix3 i⟩
  have hl : ∀ k : Fin 1024, lidx_main_v18 (ix3 b p o) k = ix3 b p k := fun k => by
    funext a; match a with | ⟨0, _⟩ => rfl | ⟨1, _⟩ => rfl | ⟨2, _⟩ => rfl
  have hrx : ∀ k : Fin 1024, ridx_main_v18 (ix3 b p o) k = ix2 k o := fun k => by
    funext a; match a with | ⟨0, _⟩ => rfl | ⟨1, _⟩ => rfl
  have hb : idx_main_v19 (idx_main_v20 (ix3 b p o)) = ix1 o := by
    funext a; match a with | ⟨0, _⟩ => rfl
  have hpe : idx_main_v22 (idx_main_v23 (ix3 b p o)) = ix2 p o := by
    funext a; match a with | ⟨0, _⟩ => rfl | ⟨1, _⟩ => rfl
  rw [val_main_v24_apply, val_main_v21_apply, val_main_v18_apply, val_main_v20_apply, val_main_v19_apply, hb,
    val_main_v23_apply, val_main_v22_apply, hpe, Ideal.addf_def, Ideal.addf_def]
  show _ = (∑ j : Fin 1024, Cert.PartTableMlp.hidden x0 x1 x2 x3 b p j * x4 (ix2 j o)) + x5 (ix1 o) + x6 (ix2 p o)
  congr 2
  refine Finset.sum_congr rfl fun k _ => ?_
  rw [hl k, hrx k, hidden_at x0 x1 x2 x3 hr b p k]

end Cert.ReferenceValue

end
-- ==== Proof.LibPlainDot.lean ====
/-
  A matrix product `[M, K] · [K, N]` with no batch axis, accumulated into zero, read at the entry `(r, c)` over the
  extended reals: the sum over `k` of `lhs (r, k) · rhs (k, c)`.
-/
import Idealize.ShloMosaic.PureOps.Ideal.Laws
import Idealize.ShloMosaic.Lib.ValueIdx

noncomputable section

open scoped BigOperators

namespace Cert.PlainDot

open Idealize.ShloMosaic Idealize.ShloMosaic.ValueIdx

variable (M K N : Nat)

/-- The left operand's row is the result's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product into a zero accumulator at `(r, c)` is `Σ_k lhs (r, k) · rhs (k, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row M K N _ _
      | ⟨1, _⟩ => exact (lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- The same, over the abbreviation a printed kernel body applies. -/
theorem matmul_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, lhs (ix2 r k) * rhs (ix2 k c) :=
  matmul_zero_apply M K N prec lhs rhs r c

end Cert.PlainDot

end
-- ==== Proof.OneHot.lean ====
/-
  The kernel looks a table row up by a product with a one-hot matrix.  Row `r = 128·s + l` of that matrix compares
  the word `w (0, s, l)` of an `[1, 8, 128]` block of indices with the column number `k`: the entry is `1` where
  they agree and `0` elsewhere.  Summed against the rows `e k` of a 384-row table it therefore returns row
  `w (0, s, l)` of the table, whenever that word is below 384 (read unsigned).
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import proofs.«402789_j59940563583540_2_alg».proof.Proof.PartTableMlp

noncomputable section

open scoped BigOperators

namespace Cert.OneHot

open Idealize.ShloMosaic Idealize.ShloMosaic.ValueIdx

/-- A compare-for-equality bit, widened to a word and converted to a float, is the indicator of the equality. -/
theorem indicator_word (h : BitVec 32) (k : Fin 384) :
    (FloatOps.sitofp (F := Ideal) .f32 ((IntOp.cmpi .eq h (BitVec.ofNat 32 k.val)).setWidth 32) : EReal)
      = if h = BitVec.ofNat 32 k.val then 1 else 0 := by
  by_cases e : h = BitVec.ofNat 32 k.val
  · rw [if_pos e, StableHlo.Predicate.cmpi_eq_iff.mpr e]
    show (((1#1 : BitVec 1).setWidth 32).toInt : ℝ) = (1 : EReal)
    have : ((1#1 : BitVec 1).setWidth 32).toInt = 1 := by decide
    rw [this]; norm_num
  · rw [if_neg e, eq_zero_of_ne_one (fun h1 => e (StableHlo.Predicate.cmpi_eq_iff.mp h1))]
    show (((0#1 : BitVec 1).setWidth 32).toInt : ℝ) = (0 : EReal)
    have : ((0#1 : BitVec 1).setWidth 32).toInt = 0 := by decide
    rw [this]; norm_num

/-- The word equals the column number exactly at the column the word names. -/
theorem eq_ofNat_iff (h : BitVec 32) (hh : h.toNat < 384) (k : Fin 384) :
    h = BitVec.ofNat 32 k.val ↔ k = ⟨h.toNat, hh⟩ := by
  have hk := k.isLt
  constructor
  · intro e
    apply Fin.ext
    show k.val = h.toNat
    rw [e, BitVec.toNat_ofNat]
    exact (Nat.mod_eq_of_lt (by omega)).symm
  · intro e
    apply BitVec.eq_of_toNat_eq
    rw [BitVec.toNat_ofNat, e]
    show h.toNat = h.toNat % 2 ^ 32
    exact (Nat.mod_eq_of_lt (by omega)).symm

/-- Summing the indicator row against a table's rows returns the named row. -/
theorem indicator_sum (h : BitVec 32) (hh : h.toNat < 384) (e : Fin 384 → EReal) :
    (∑ k : Fin 384, (if h = BitVec.ofNat 32 k.val then (1 : EReal) else 0) * e k) = e ⟨h.toNat, hh⟩ := by
  rw [← Cert.PartTableMlp.sum_indicator_mul ⟨h.toNat, hh⟩ e]
  refine Finset.sum_congr rfl fun k _ => ?_
  rw [if_congr (eq_ofNat_iff h hh k) rfl rfl]

/-- The one-hot matrix of an index block, read at `(r, k)`. -/
theorem entry (w : IVec ⟨3, ![1, 8, 128]⟩ 32)
    (h1 : (⟨3, ![1, 8, 128]⟩ : Shape).ShapeCasts ⟨2, ![8, 128]⟩)
    (h2 : (⟨2, ![8, 128]⟩ : Shape).ShapeCasts ⟨3, ![8, 128, 1]⟩)
    (h3 : (⟨3, ![8, 128, 1]⟩ : Shape).Broadcasts ⟨3, ![8, 128, 384]⟩)
    (h4 : (⟨3, ![8, 128, 384]⟩ : Shape).Iotas .tc 32 [2])
    (h5 : 1 < 32) (h6 : FTy.bf16.bits < FTy.f32.bits)
    (h7 : (⟨3, ![8, 128, 384]⟩ : Shape).ShapeCasts ⟨2, ![1024, 384]⟩)
    (r : Fin 1024) (k : Fin 384) :
    (shapeCast ⟨2, ![1024, 384]⟩
        (truncf .bf16 (sitofp .f32 (extui 32 (cmpi .eq
          (broadcastTo ⟨3, ![8, 128, 384]⟩ (shapeCast ⟨3, ![8, 128, 1]⟩ (shapeCast ⟨2, ![8, 128]⟩ w h1) h2) h3)
          (iota .tc ⟨3, ![8, 128, 384]⟩ 32 [2] h4)) h5) : FVec Ideal ⟨3, ![8, 128, 384]⟩ .f32) h6) h7 :
          FVec Ideal ⟨2, ![1024, 384]⟩ .bf16) (ix2 r k)
      = if w (ix3 (0 : Fin 1) (⟨r.val / 128, by have := r.isLt; omega⟩ : Fin 8) (⟨r.val % 128, Nat.mod_lt _ (by decide)⟩ : Fin 128))
            = BitVec.ofNat 32 k.val then (1 : EReal) else 0 := by
  have hr := r.isLt
  rw [shapeCast_apply _ h7 (ix2 r k)
    (ix3 (⟨r.val / 128, by omega⟩ : Fin 8) (⟨r.val % 128, Nat.mod_lt _ (by decide)⟩ : Fin 128) k) (by
      rw [Shape.rowMajor_val_three, Shape.rowMajor_val_two]
      show (r.val / 128 * 128 + r.val % 128) * 384 + k.val = r.val * 384 + k.val
      rw [Nat.div_add_mod' r.val 128])]
  rw [truncf_apply, sitofp_apply, extui_apply]
  show FloatOps.sitofp (F := Ideal) .f32 ((IntOp.cmpi .eq (broadcastTo ⟨3, ![8, 128, 384]⟩ _ h3 _) (iota .tc ⟨3, ![8, 128, 384]⟩ 32 [2] h4 _)).setWidth 32) = _
  rw [iota_single_apply,
    broadcastTo_apply _ h3 _ (ix3 (⟨r.val / 128, by omega⟩ : Fin 8) (⟨r.val % 128, Nat.mod_lt _ (by decide)⟩ : Fin 128) (0 : Fin 1)) (fun a => by
      match a with
      | ⟨0, _⟩ => rfl
      | ⟨1, _⟩ => rfl
      | ⟨2, _⟩ => rfl),
    shapeCast_apply _ h2 _ (ix2 (⟨r.val / 128, by omega⟩ : Fin 8) (⟨r.val % 128, Nat.mod_lt _ (by decide)⟩ : Fin 128)) (by
      rw [Shape.rowMajor_val_three, Shape.rowMajor_val_two]
      show r.val / 128 * 128 + r.val % 128 = (r.val / 128 * 128 + r.val % 128) * 1 + 0
      omega),
    shapeCast_1ab_ab_apply]
  exact indicator_word _ k

end Cert.OneHot

end
-- ==== Proof.KernelBody.lean ====
/-
  The kernel body's stored value, read at row `r` and column `o` of the `[1024, 1024]` output block, as a function of
  the blocks it loads: the one-hot product picks a row of the part's table block, the row goes through the two
  layers, and the part's positional row is added.
-/
import proofs.«402789_j59940563583540_2_alg».proof.Proof.Gen.KernelIdeal.Skeleton
import proofs.«402789_j59940563583540_2_alg».proof.Proof.PartTableMlp
import proofs.«402789_j59940563583540_2_alg».proof.Proof.LibPlainDot
import proofs.«402789_j59940563583540_2_alg».proof.Proof.OneHot
import Idealize.ShloMosaic.Lib.ValueLayout
import Idealize.ShloMosaic.Lib.Pipeline.Value

noncomputable section

open scoped BigOperators

namespace Cert.KernelBody

open Cert.KernelIdeal Cert.KernelIdeal.Gen Idealize.ShloMosaic Idealize.ShloMosaic.ValueIdx

/-- The three products of the body are plain `[M, K] · [K, N]` products. -/
theorem dot1_eq : dot_S1024x384_S384x768_S1024x768_1_0_0_1_n_n = DotDims.plain 1024 384 768 := rfl
theorem dot2_eq : dot_S1024x768_S768x1024_S1024x1024_1_0_0_1_n_n = DotDims.plain 1024 768 1024 := rfl
theorem dot3_eq : dot_S1024x1024_S1024x1024_S1024x1024_1_0_0_1_n_n = DotDims.plain 1024 1024 1024 := rfl

/-- A vector of 1024 entries laid along every row of the block reads, at `(r, o)`, its entry `o`. -/
theorem row_of_vector (y : FVec Ideal S1024 .f32) (h1 : S1024.ShapeCasts S1x1024) (h2 : S1x1024.Broadcasts S1024x1024)
    (r o : Fin 1024) : broadcastTo S1024x1024 (shapeCast S1x1024 y h1) h2 (ix2 r o) = y (ix1 o) := by
  rw [broadcastTo_1b_ab_apply, shapeCast_a_1a_apply]

/-- The part's positional row, a `[1, 1, 1024]` block, laid along every row of the block reads, at `(r, o)`, its entry `o`. -/
theorem row_of_block (y : FVec Ideal S1x1x1024 .f32) (h1 : S1x1x1024.ShapeCasts S1x1024) (h2 : S1x1024.Broadcasts S1024x1024)
    (r o : Fin 1024) : broadcastTo S1024x1024 (shapeCast S1x1024 y h1) h2 (ix2 r o) = y (ix3 (0 : Fin 1) (0 : Fin 1) o) := by
  rw [broadcastTo_1b_ab_apply, shapeCast_1ab_ab_apply]

/-- The looked-up row: the one-hot product with the part's table block at `(r, v)`. -/
theorem looked_entry (x0 : Vec Ideal S1x8x128 .i32) (x1 : Vec Ideal S1x384x768 .bf16)
    (h1 : S1x8x128.ShapeCasts S8x128) (h2 : S8x128.ShapeCasts S8x128x1) (h3 : S8x128x1.Broadcasts S8x128x384)
    (h4 : S8x128x384.Iotas .tc 32 [2]) (h5 : 1 < 32) (h6 : FTy.bf16.bits < FTy.f32.bits)
    (h7 : S8x128x384.ShapeCasts S1024x384) (h8 : S1x384x768.ShapeCasts S384x768) (r : Fin 1024) (v : Fin 768) :
    matmul dot_S1024x384_S384x768_S1024x768_1_0_0_1_n_n none
        (shapeCast S1024x384 (truncf .bf16 (sitofp .f32 (extui 32 (cmpi .eq
          (broadcastTo S8x128x384 (shapeCast S8x128x1 (shapeCast S8x128 x0 h1) h2) h3)
          (iota .tc S8x128x384 32 [2] h4)) h5) : FVec Ideal S8x128x384 .f32) h6) h7 : FVec Ideal S1024x384 .bf16)
        (shapeCast S384x768 x1 h8 : FVec Ideal S384x768 .bf16) (constant S1024x768 .f32 0x00000000#32) (ix2 r v)
      = ∑ k : Fin 384, (if x0 (ix3 (0 : Fin 1) (⟨r.val / 128, by have := r.isLt; omega⟩ : Fin 8)
            (⟨r.val % 128, Nat.mod_lt _ (by decide)⟩ : Fin 128)) = BitVec.ofNat 32 k.val then (1 : EReal) else 0)
          * x1 (ix3 (0 : Fin 1) k v) := by
  rw [dot1_eq, PlainDot.matmul_apply]
  refine Finset.sum_congr rfl fun k _ => ?_
  rw [Cert.OneHot.entry, shapeCast_1ab_ab_apply]

/-- The rectified first layer at `(r, j)`, for any matrix `A` of looked-up rows. -/
theorem hidden_entry (A : FVec Ideal S1024x768 .f32) (x3 : Vec Ideal S768x1024 .bf16) (x4 : Vec Ideal S1024 .f32)
    (h6 : FTy.bf16.bits < FTy.f32.bits) (h9 : S768x1024.ShapeCasts S768x1024) (h10 : S1024.ShapeCasts S1x1024)
    (h11 : S1x1024.Broadcasts S1024x1024) (r j : Fin 1024) :
    (truncf .bf16 (maximumf (addf
        (matmul dot_S1024x768_S768x1024_S1024x1024_1_0_0_1_n_n none (truncf .bf16 A h6 : FVec Ideal S1024x768 .bf16)
          (shapeCast S768x1024 x3 h9 : FVec Ideal S768x1024 .bf16) (constant S1024x1024 .f32 0x00000000#32))
        (broadcastTo S1024x1024 (shapeCast S1x1024 x4 h10) h11))
        (broadcast S1024x1024 (FloatOps.ofBits (F := Ideal) .f32 0x00000000#32))) h6 : FVec Ideal S1024x1024 .bf16) (ix2 r j)
      = max ((∑ v : Fin 768, A (ix2 r v) * x3 (ix2 v j)) + x4 (ix1 j)) 0 := by
  rw [truncf_apply, maximumf_apply, addf_apply, broadcast_apply, dot2_eq, PlainDot.matmul_apply, row_of_vector,
    Ideal.ofBits_def, Ideal.ofBits_zero_f32]
  congr 2
  refine Finset.sum_congr rfl fun v _ => ?_
  rw [truncf_apply, shapeCast_self]

/-- THE BODY'S STORED VALUE at `(r, o)`. -/
theorem pay_apply (x0 : Vec Ideal S1x8x128 .i32) (x1 : Vec Ideal S1x384x768 .bf16) (x3 : Vec Ideal S768x1024 .bf16)
    (x4 : Vec Ideal S1024 .f32) (x5 : Vec Ideal S1024x1024 .bf16) (x6 : Vec Ideal S1024 .f32) (x2 : Vec Ideal S1x1x1024 .f32)
    (r o : Fin 1024) :
    k0_pay1 (F := Ideal) x0 x1 x3 x4 x5 x6 x2 (ix2 r o)
      = (∑ j : Fin 1024,
          max ((∑ v : Fin 768,
              (∑ k : Fin 384, (if x0 (ix3 (0 : Fin 1) (⟨r.val / 128, by have := r.isLt; omega⟩ : Fin 8)
                    (⟨r.val % 128, Nat.mod_lt _ (by decide)⟩ : Fin 128)) = BitVec.ofNat 32 k.val then (1 : EReal) else 0)
                  * x1 (ix3 (0 : Fin 1) k v))
              * x3 (ix2 v j)) + x4 (ix1 j)) 0
          * x5 (ix2 j o))
        + x6 (ix1 o) + x2 (ix3 (0 : Fin 1) (0 : Fin 1) o) := by
  unfold k0_pay1
  rw [addf_apply, addf_apply, dot3_eq, PlainDot.matmul_apply, row_of_vector, row_of_block]
  congr 2
  refine Finset.sum_congr rfl fun j _ => ?_
  rw [hidden_entry, shapeCast_self]
  congr 3
  refine Finset.sum_congr rfl fun v _ => ?_
  rw [looked_entry]

/-- THE BODY COMPUTES THE SPECIFICATION.  Suppose the point's blocks hold: in the index block at `(0, r / 128, r % 128)` the
    word `hs (b, p)`, which is at most 256; in the table block the 257 rows of part `p` (whatever the rows from 257 on
    hold); the two layers' weights and biases; and the part's positional row.  Then the stored value at `(r, o)` is the
    specification at `(b, p, o)`: the indicator row against the table block returns row `hs (b, p)` of part `p`, which is
    row `257·p + hs (b, p)` of the flat table, and the rest is the same expression. -/
theorem pay_eq_out (hs : IVec ⟨2, ![4096, 16]⟩ 32) (emb : FVec Ideal ⟨2, ![4112, 768]⟩ .f32)
    (W1 : FVec Ideal ⟨2, ![768, 1024]⟩ .f32) (b1 : FVec Ideal ⟨1, ![1024]⟩ .f32)
    (W2 : FVec Ideal ⟨2, ![1024, 1024]⟩ .f32) (b2 : FVec Ideal ⟨1, ![1024]⟩ .f32) (pe : FVec Ideal ⟨2, ![16, 1024]⟩ .f32)
    (x0 : Vec Ideal S1x8x128 .i32) (x1 : Vec Ideal S1x384x768 .bf16) (x3 : Vec Ideal S768x1024 .bf16)
    (x4 : Vec Ideal S1024 .f32) (x5 : Vec Ideal S1024x1024 .bf16) (x6 : Vec Ideal S1024 .f32) (x2 : Vec Ideal S1x1x1024 .f32)
    (b : Fin 4096) (p : Fin 16) (r o : Fin 1024)
    (H0 : x0 (ix3 (0 : Fin 1) (⟨r.val / 128, by have := r.isLt; omega⟩ : Fin 8)
        (⟨r.val % 128, Nat.mod_lt _ (by decide)⟩ : Fin 128)) = hs (ix2 b p))
    (Hh : (hs (ix2 b p)).toNat ≤ 256)
    (H1 : ∀ (k : Fin 384) (hk : k.val ≤ 256) (v : Fin 768),
      x1 (ix3 (0 : Fin 1) k v) = emb (ix2 (⟨257 * p.val + k.val, by have := p.isLt; omega⟩ : Fin 4112) v))
    (H3 : ∀ (v : Fin 768) (j : Fin 1024), x3 (ix2 v j) = W1 (ix2 v j)) (H4 : ∀ j : Fin 1024, x4 (ix1 j) = b1 (ix1 j))
    (H5 : ∀ j o : Fin 1024, x5 (ix2 j o) = W2 (ix2 j o)) (H6 : ∀ o : Fin 1024, x6 (ix1 o) = b2 (ix1 o))
    (H2 : ∀ o : Fin 1024, x2 (ix3 (0 : Fin 1) (0 : Fin 1) o) = pe (ix2 p o)) :
    k0_pay1 (F := Ideal) x0 x1 x3 x4 x5 x6 x2 (ix2 r o) = Cert.PartTableMlp.out hs emb W1 b1 W2 b2 pe (ix3 b p o) := by
  rw [pay_apply, H0, H6, H2]
  show _ = (∑ j : Fin 1024, Cert.PartTableMlp.hidden hs emb W1 b1 b p j * W2 (ix2 j o)) + b2 (ix1 o) + pe (ix2 p o)
  congr 2
  refine Finset.sum_congr rfl fun j _ => ?_
  rw [H5, H4]
  unfold Cert.PartTableMlp.hidden Cert.PartTableMlp.looked
  congr 3
  refine Finset.sum_congr rfl fun v _ => ?_
  rw [H3, Cert.OneHot.indicator_sum (hs (ix2 b p)) (by omega) (fun k => x1 (ix3 (0 : Fin 1) k v)), H1 _ Hh]
  congr 3
  exact Fin.ext (Cert.PartTableMlp.flatRow_val _ _ Hh).symm

end Cert.KernelBody

end
-- ==== Proof.RegionArrays.lean ====
/-
  The arrays the region reads, as the host lines before it leave them, read at an index in terms of the arguments:
  the index array is `hashes` transposed and split `[16, 4096] → [16, 32, 128]`; the table is `emb` split into its 16
  parts of 257 rows, each padded with zero rows to 384; the positional array is `pe` with a unit axis inserted; the
  weights are the arguments themselves (a change of float format is the identity on extended reals).
-/
import proofs.«402789_j59940563583540_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal

set_option maxRecDepth 16384

noncomputable section

namespace Cert.RegionArrays

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The index array at `(p, q, l)` is `hashes (128·q + l, p)`. -/
theorem hashes_at (c : Dev nD) (p : Fin 16) (q : Fin 32) (l : Fin 128) :
    (V m c main_v1 : S16x32x128.Idx → BitVec 32) (ix3 p q l)
      = (m ((c : Thread nD τ).loc main_arg0) : S4096x16.Idx → BitVec 32)
          (ix2 (⟨q.val * 128 + l.val, by have := q.isLt; have := l.isLt; omega⟩ : Fin 4096) p) := by
  have e : (V m c main_v1 : S16x32x128.Idx → BitVec 32)
      = shapeCast S16x32x128 (transpose S16x4096 [1, 0] (m ((c : Thread nD τ).loc main_arg0)) transposes_S4096x16_S16x4096_1_0)
          shapeCasts_S16x4096_S16x32x128 := by
    dsimp only [V, V0]
    simp only [hostOps0, hostOps0_1, hostOps0_2, List.flatten_cons, List.flatten_nil, List.append_nil, List.cons_append,
      List.nil_append]
    after_results
    rfl
  rw [e, shapeCast_apply _ _ (ix3 p q l)
    (ix2 p (⟨q.val * 128 + l.val, by have := q.isLt; have := l.isLt; omega⟩ : Fin 4096)) (by
      rw [Shape.rowMajor_val_two, Shape.rowMajor_val_three]
      show p.val * 4096 + (q.val * 128 + l.val) = (p.val * 32 + q.val) * 128 + l.val
      omega),
    transpose_ix2_apply]

/-- The padded table at `(p, k, v)` with `k` among the part's own 257 rows is `emb (257·p + k, v)`. -/
theorem table_at (c : Dev nD) (p : Fin 16) (k : Fin 384) (hk : k.val ≤ 256) (v : Fin 768) :
    (V m c main_v4 : S16x384x768.Idx → EReal) (ix3 p k v)
      = (m ((c : Thread nD τ).loc main_arg1) : S4112x768.Idx → EReal)
          (ix2 (⟨257 * p.val + k.val, by have := p.isLt; omega⟩ : Fin 4112) v) := by
  have e : (V m c main_v4 : S16x384x768.Idx → EReal)
      = truncf .bf16 (pad S16x384x768 ![0, 0, 0] ![0, 127, 0] ![0, 0, 0]
          (shapeCast S16x257x768 (m ((c : Thread nD τ).loc main_arg1)) shapeCasts_S4112x768_S16x257x768)
          (sitofp (F := Ideal) .f32 (constantI S_ 32 0#32)) pads_S16x257x768_S16x384x768_000_01270_000 h_S_ : FVec Ideal S16x384x768 .f32)
          bitsLt_bf16_f32 := by
    dsimp only [V, V0]
    simp only [hostOps0, hostOps0_1, hostOps0_2, List.flatten_cons, List.flatten_nil, List.append_nil, List.cons_append,
      List.nil_append]
    after_results
    rfl
  rw [e, truncf_apply,
    pad_apply_of_inside _ _ _ _ _ _ _ (ix3 p k v) (ix3 p (⟨k.val, by omega⟩ : Fin 257) v) (fun a => by
      match a with
      | ⟨0, _⟩ => show p.val = 0 + p.val * (0 + 1); omega
      | ⟨1, _⟩ => show k.val = 0 + k.val * (0 + 1); omega
      | ⟨2, _⟩ => show v.val = 0 + v.val * (0 + 1); omega),
    shapeCast_apply _ _ (ix3 p (⟨k.val, by omega⟩ : Fin 257) v)
      (ix2 (⟨257 * p.val + k.val, by have := p.isLt; omega⟩ : Fin 4112) v) (by
        rw [Shape.rowMajor_val_two, Shape.rowMajor_val_three]
        show (257 * p.val + k.val) * 768 + v.val = (p.val * 257 + k.val) * 768 + v.val
        omega)]

/-- The positional array at `(p, 0, o)` is `pe (p, o)`. -/
theorem pe_at (c : Dev nD) (p : Fin 16) (u : Fin 1) (o : Fin 1024) :
    (V m c main_v7 : S16x1x1024.Idx → EReal) (ix3 p u o)
      = (m ((c : Thread nD τ).loc main_arg6) : S16x1024.Idx → EReal) (ix2 p o) := by
  have e : (V m c main_v7 : S16x1x1024.Idx → EReal)
      = shapeCast S16x1x1024 (m ((c : Thread nD τ).loc main_arg6)) shapeCasts_S16x1024_S16x1x1024 := by
    dsimp only [V, V0]
    simp only [hostOps0, hostOps0_1, hostOps0_2, List.flatten_cons, List.flatten_nil, List.append_nil, List.cons_append,
      List.nil_append]
    after_results
    rfl
  have hu : u.val = 0 := by omega
  rw [e, shapeCast_apply _ _ (ix3 p u o) (ix2 p o) (by
    rw [Shape.rowMajor_val_two, Shape.rowMajor_val_three]
    show p.val * 1024 + o.val = (p.val * 1 + u.val) * 1024 + o.val
    omega)]

/-- The first layer's weights as the region finds them are the argument. -/
theorem w1_at (c : Dev nD) (i : S768x1024.Idx) :
    (V m c main_v5 : S768x1024.Idx → EReal) i = (m ((c : Thread nD τ).loc main_arg2) : S768x1024.Idx → EReal) i := by
  have e : (V m c main_v5 : S768x1024.Idx → EReal)
      = (truncf .bf16 (m ((c : Thread nD τ).loc main_arg2) : FVec Ideal S768x1024 .f32) bitsLt_bf16_f32 : FVec Ideal S768x1024 .bf16) := by
    dsimp only [V, V0]
    simp only [hostOps0, hostOps0_1, hostOps0_2, List.flatten_cons, List.flatten_nil, List.append_nil, List.cons_append,
      List.nil_append]
    after_results
  rw [e, truncf_apply]

/-- The second layer's weights as the region finds them are the argument. -/
theorem w2_at (c : Dev nD) (i : S1024x1024.Idx) :
    (V m c main_v6 : S1024x1024.Idx → EReal) i = (m ((c : Thread nD τ).loc main_arg4) : S1024x1024.Idx → EReal) i := by
  have e : (V m c main_v6 : S1024x1024.Idx → EReal)
      = (truncf .bf16 (m ((c : Thread nD τ).loc main_arg4) : FVec Ideal S1024x1024 .f32) bitsLt_bf16_f32 : FVec Ideal S1024x1024 .bf16) := by
    dsimp only [V, V0]
    simp only [hostOps0, hostOps0_1, hostOps0_2, List.flatten_cons, List.flatten_nil, List.append_nil, List.cons_append,
      List.nil_append]
    after_results
  rw [e, truncf_apply]

end Cert.RegionArrays

end
-- ==== Proof.KernelValue.lean ====
/-
  What the kernel program leaves in its result.  The region's output array has shape `[4096, 16384]`; grid point
  `(p, q)` (part `p`, batch tile `q`) writes the block of rows `1024·q … 1024·q + 1023` and columns
  `1024·p … 1024·p + 1023`, and the body's value at `(r, o)` of that block is the specification at
  `(1024·q + r, p, o)`.  The 64 blocks tile the array, so the array ends as the specification with its last two axes
  merged, and the host line after the region splits them again.
-/
import proofs.«402789_j59940563583540_2_alg».proof.Defs
import proofs.«402789_j59940563583540_2_alg».proof.Proof.Gen.KernelIdeal.Frame
import proofs.«402789_j59940563583540_2_alg».proof.Proof.PartTableMlp
import proofs.«402789_j59940563583540_2_alg».proof.Proof.KernelBody
import proofs.«402789_j59940563583540_2_alg».proof.Proof.RegionArrays
import proofs.«402789_j59940563583540_2_alg».proof.Proof.HashRange
import Idealize.ShloMosaic.Lib.Pipeline.Value
import Idealize.ShloMosaic.Lib.StableHlo.Run
import Idealize.ShloMosaic.Lib.Tactic

set_option maxRecDepth 16384

noncomputable section

namespace Cert.KernelValue

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The specification of the arguments as launched. -/
def spec (c : Dev nD) : FVec Ideal ⟨3, ![4096, 16, 1024]⟩ .f32 :=
  Cert.PartTableMlp.out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The specification with its part and output axes merged: column `1024·p + o` holds `(p, o)`. -/
def flat (c : Dev nD) : S4096x16384.Idx → EReal := fun i =>
  spec m c (ix3 (i 0) (⟨(i 1).val / 1024, by have := (i 1).isLt; show _ < 16; change (i 1).val < 16384 at this; omega⟩ : Fin 16)
    (⟨(i 1).val % 1024, Nat.mod_lt _ (by decide)⟩ : Fin 1024))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 grid points: the index and table and positional windows sit at the
    output block's part, the index window also at its batch tile, the weights and biases at their one block. -/
theorem idx_facts : ∀ t : Fin cfg0.N,
    win0_0.index t (0 : Fin 3) = win0_7.index t (1 : Fin 2) ∧ win0_0.index t (1 : Fin 3) = win0_7.index t (0 : Fin 2)
    ∧ win0_0.index t (2 : Fin 3) = 0
    ∧ win0_1.index t (0 : Fin 3) = win0_7.index t (1 : Fin 2) ∧ win0_1.index t (1 : Fin 3) = 0 ∧ win0_1.index t (2 : Fin 3) = 0
    ∧ win0_2.index t (0 : Fin 3) = win0_7.index t (1 : Fin 2) ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) ≤ 3 ∧ win0_7.index t (1 : Fin 2) ≤ 15 :=
  (by decide +kernel : ∀ t : Fin grid0.N, _)

/-- Every block of the output array is some point's. -/
theorem idx_onto : ∀ (q0 : Fin 4) (q1 : Fin 16), ∃ t : Fin cfg0.N, win0_7.index t = ![q0.val, q1.val] :=
  (by decide +kernel : ∀ (q0 : Fin 4) (q1 : Fin 16), ∃ t : Fin grid0.N, win0_7.index t = ![q0.val, q1.val])

/-! ## Each window's block at a point, read off the arguments

Point `t` has its windows at block indices decided in `idx_facts`; here they are hypotheses `P` (the part) and `B`
(the batch tile), so that each lemma is about one window only. -/

/-- The index block at `(0, r / 128, r % 128)` is `hashes (1024·B + r, P)`. -/
theorem index_block_at (c : Dev nD) (t : Fin cfg0.N) (P B : Nat) (hP : P < 16) (hB : B < 4)
    (e0 : win0_0.index t (0 : Fin 3) = P) (e1 : win0_0.index t (1 : Fin 3) = B) (e2 : win0_0.index t (2 : Fin 3) = 0)
    (r : Fin 1024) :
    (iblk m c 0 t : S1x8x128.Idx → BitVec 32)
        (ix3 (0 : Fin 1) (⟨r.val / 128, by have := r.isLt; omega⟩ : Fin 8) (⟨r.val % 128, Nat.mod_lt _ (by decide)⟩ : Fin 128))
      = (m ((c : Thread nD τ).loc main_arg0) : S4096x16.Idx → BitVec 32)
          (ix2 (⟨B * 1024 + r.val, by have := r.isLt; omega⟩ : Fin 4096) (⟨P, hP⟩ : Fin 16)) := by
  have hr := r.isLt
  show (V m c main_v1 : S16x32x128.Idx → BitVec 32) (((cfg0.win 0).blk t).view.emb
    (ix3 (0 : Fin 1) (⟨r.val / 128, by omega⟩ : Fin 8) (⟨r.val % 128, Nat.mod_lt _ (by decide)⟩ : Fin 128))) = _
  have he : ((cfg0.win 0).blk t).view.emb
      (ix3 (0 : Fin 1) (⟨r.val / 128, by omega⟩ : Fin 8) (⟨r.val % 128, Nat.mod_lt _ (by decide)⟩ : Fin 128))
      = ix3 (⟨P, hP⟩ : Fin 16) (⟨B * 8 + r.val / 128, by omega⟩ : Fin 32) (⟨r.val % 128, Nat.mod_lt _ (by decide)⟩ : Fin 128) := by
    funext a; apply Fin.ext
    match a with
    | ⟨0, _⟩ => show win0_0.index t (0 : Fin 3) * 1 + 1 * 0 = P; omega
    | ⟨1, _⟩ => show win0_0.index t (1 : Fin 3) * 8 + 1 * (r.val / 128) = B * 8 + r.val / 128; omega
    | ⟨2, _⟩ => show win0_0.index t (2 : Fin 3) * 128 + 1 * (r.val % 128) = r.val % 128; omega
  rw [he, Cert.RegionArrays.hashes_at]
  congr 2
  apply Fin.ext
  show (B * 8 + r.val / 128) * 128 + r.val % 128 = B * 1024 + r.val
  omega

/-- The table block at `(0, k, v)`, for `k` among the part's own 257 rows, is `emb (257·P + k, v)`. -/
theorem table_block_at (c : Dev nD) (t : Fin cfg0.N) (P : Nat) (hP : P < 16)
    (e0 : win0_1.index t (0 : Fin 3) = P) (e1 : win0_1.index t (1 : Fin 3) = 0) (e2 : win0_1.index t (2 : Fin 3) = 0)
    (k : Fin 384) (hk : k.val ≤ 256) (v : Fin 768) :
    (iblk m c 1 t : S1x384x768.Idx → EReal) (ix3 (0 : Fin 1) k v)
      = (m ((c : Thread nD τ).loc main_arg1) : S4112x768.Idx → EReal) (ix2 (⟨257 * P + k.val, by omega⟩ : Fin 4112) v) := by
  show (V m c main_v4 : S16x384x768.Idx → EReal) (((cfg0.win 1).blk t).view.emb (ix3 (0 : Fin 1) k v)) = _
  have he : ((cfg0.win 1).blk t).view.emb (ix3 (0 : Fin 1) k v) = ix3 (⟨P, hP⟩ : Fin 16) k v := by
    funext a; apply Fin.ext
    match a with
    | ⟨0, _⟩ => show win0_1.index t (0 : Fin 3) * 1 + 1 * 0 = P; omega
    | ⟨1, _⟩ => show win0_1.index t (1 : Fin 3) * 384 + 1 * k.val = k.val; omega
    | ⟨2, _⟩ => show win0_1.index t (2 : Fin 3) * 768 + 1 * v.val = v.val; omega
  rw [he, Cert.RegionArrays.table_at m c _ k hk v]

/-- The positional block at `(0, 0, o)` is `pe (P, o)`. -/
theorem pe_block_at (c : Dev nD) (t : Fin cfg0.N) (P : Nat) (hP : P < 16)
    (e0 : win0_2.index t (0 : Fin 3) = P) (e1 : win0_2.index t (1 : Fin 3) = 0) (e2 : win0_2.index t (2 : Fin 3) = 0)
    (o : Fin 1024) :
    (iblk m c 2 t : S1x1x1024.Idx → EReal) (ix3 (0 : Fin 1) (0 : Fin 1) o)
      = (m ((c : Thread nD τ).loc main_arg6) : S16x1024.Idx → EReal) (ix2 (⟨P, hP⟩ : Fin 16) o) := by
  show (V m c main_v7 : S16x1x1024.Idx → EReal) (((cfg0.win 2).blk t).view.emb (ix3 (0 : Fin 1) (0 : Fin 1) o)) = _
  have he : ((cfg0.win 2).blk t).view.emb (ix3 (0 : Fin 1) (0 : Fin 1) o) = ix3 (⟨P, hP⟩ : Fin 16) (0 : Fin 1) o := by
    funext a; apply Fin.ext
    match a with
    | ⟨0, _⟩ => show win0_2.index t (0 : Fin 3) * 1 + 1 * 0 = P; omega
    | ⟨1, _⟩ => show win0_2.index t (1 : Fin 3) * 1 + 1 * 0 = 0; omega
    | ⟨2, _⟩ => show win0_2.index t (2 : Fin 3) * 1024 + 1 * o.val = o.val; omega
  rw [he, Cert.RegionArrays.pe_at]

/-- The first layer's weight block is the whole argument. -/
theorem w1_block_at (c : Dev nD) (t : Fin cfg0.N) (e0 : win0_3.index t (0 : Fin 2) = 0) (e1 : win0_3.index t (1 : Fin 2) = 0)
    (v : Fin 768) (j : Fin 1024) :
    (iblk m c 3 t : S768x1024.Idx → EReal) (ix2 v j)
      = (m ((c : Thread nD τ).loc main_arg2) : S768x1024.Idx → EReal) (ix2 v j) := by
  show (V m c main_v5 : S768x1024.Idx → EReal) (((cfg0.win 3).blk t).view.emb (ix2 v j)) = _
  have he : ((cfg0.win 3).blk t).view.emb (ix2 v j) = ix2 v j := by
    funext a; apply Fin.ext
    match a with
    | ⟨0, _⟩ => show win0_3.index t (0 : Fin 2) * 768 + 1 * v.val = v.val; omega
    | ⟨1, _⟩ => show win0_3.index t (1 : Fin 2) * 1024 + 1 * j.val = j.val; omega
  rw [he, Cert.RegionArrays.w1_at]

/-- The first layer's bias block is the whole argument. -/
theorem b1_block_at (c : Dev nD) (t : Fin cfg0.N) (e0 : win0_4.index t (0 : Fin 1) = 0) (j : Fin 1024) :
    (iblk m c 4 t : S1024.Idx → EReal) (ix1 j) = (m ((c : Thread nD τ).loc main_arg3) : S1024.Idx → EReal) (ix1 j) := by
  show (V m c main_arg3 : S1024.Idx → EReal) (((cfg0.win 4).blk t).view.emb (ix1 j)) = _
  have he : ((cfg0.win 4).blk t).view.emb (ix1 j) = ix1 j := by
    funext a; apply Fin.ext
    match a with
    | ⟨0, _⟩ => show win0_4.index t (0 : Fin 1) * 1024 + 1 * j.val = j.val; omega
  rw [he, V_main_arg3]

/-- The second layer's weight block is the whole argument. -/
theorem w2_block_at (c : Dev nD) (t : Fin cfg0.N) (e0 : win0_5.index t (0 : Fin 2) = 0) (e1 : win0_5.index t (1 : Fin 2) = 0)
    (j o : Fin 1024) :
    (iblk m c 5 t : S1024x1024.Idx → EReal) (ix2 j o)
      = (m ((c : Thread nD τ).loc main_arg4) : S1024x1024.Idx → EReal) (ix2 j o) := by
  show (V m c main_v6 : S1024x1024.Idx → EReal) (((cfg0.win 5).blk t).view.emb (ix2 j o)) = _
  have he : ((cfg0.win 5).blk t).view.emb (ix2 j o) = ix2 j o := by
    funext a; apply Fin.ext
    match a with
    | ⟨0, _⟩ => show win0_5.index t (0 : Fin 2) * 1024 + 1 * j.val = j.val; omega
    | ⟨1, _⟩ => show win0_5.index t (1 : Fin 2) * 1024 + 1 * o.val = o.val; omega
  rw [he, Cert.RegionArrays.w2_at]

/-- The second layer's bias block is the whole argument. -/
theorem b2_block_at (c : Dev nD) (t : Fin cfg0.N) (e0 : win0_6.index t (0 : Fin 1) = 0) (o : Fin 1024) :
    (iblk m c 6 t : S1024.Idx → EReal) (ix1 o) = (m ((c : Thread nD τ).loc main_arg5) : S1024.Idx → EReal) (ix1 o) := by
  show (V m c main_arg5 : S1024.Idx → EReal) (((cfg0.win 6).blk t).view.emb (ix1 o)) = _
  have he : ((cfg0.win 6).blk t).view.emb (ix1 o) = ix1 o := by
    funext a; apply Fin.ext
    match a with
    | ⟨0, _⟩ => show win0_6.index t (0 : Fin 1) * 1024 + 1 * o.val = o.val; omega
  rw [he, V_main_arg5]

/-! ## What a point writes back -/

/-- WHAT POINT `t` WRITES BACK is block `t` of the merged specification, whenever the precondition holds. -/
theorem flushed_eq (hpre : Cert.Pre_KernelIdeal m) (c : Dev nD) (t : Fin cfg0.N) :
    (dats m 0 c).flushed 7 t = ((cfg0.win 7).blk t).view.read (Elt Ideal) (flat m c) := by
  show (cfg0.win 7).cut (grid0.coords t) ((dats m 0 c).after 7 t) = _
  rw [after0_7]
  unfold out0_7
  rw [View.canon_unit_zero hz2]
  simp only [View.ld_unit_zero (S := S1x8x128) hz3, View.ld_unit_zero (S := S1x384x768) hz3,
    View.ld_unit_zero (S := S1x1x1024) hz3, View.ld_unit_zero (S := S768x1024) hz2, View.ld_unit_zero (S := S1024) hz1,
    View.ld_unit_zero (S := S1024x1024) hz2]
  obtain ⟨a0, a1, a2, b0, b1, b2, c0, c1, c2, d0, d1, e0, f0, f1, g0, hB, hP⟩ := idx_facts t
  funext j
  obtain ⟨r, o, rfl⟩ : ∃ (r o : Fin 1024), j = ix2 r o := ⟨j 0, j 1, eq_ix2 j⟩
  have hr := r.isLt
  have ho := o.isLt
  refine (Cert.KernelBody.pay_eq_out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))
    (iblk m c 0 t) (iblk m c 1 t) (iblk m c 3 t) (iblk m c 4 t) (iblk m c 5 t) (iblk m c 6 t) (iblk m c 2 t)
    (⟨win0_7.index t (0 : Fin 2) * 1024 + r.val, by omega⟩ : Fin 4096) (⟨win0_7.index t (1 : Fin 2), by omega⟩ : Fin 16) r o
    (index_block_at m c t _ _ (by omega) (by omega) a0 a1 a2 r)
    (Cert.HashRange.toNat_le m hpre c _ _)
    (fun k hk v => table_block_at m c t _ (by omega) b0 b1 b2 k hk v)
    (fun v j => w1_block_at m c t d0 d1 v j) (fun j => b1_block_at m c t e0 j)
    (fun j o => w2_block_at m c t f0 f1 j o) (fun o => b2_block_at m c t g0 o)
    (fun o => pe_block_at m c t _ (by omega) c0 c1 c2 o)).trans ?_
  show spec m c _ = flat m c (((cfg0.win 7).blk t).view.emb (ix2 r o))
  unfold flat
  congr 1
  funext a; apply Fin.ext
  match a with
  | ⟨0, _⟩ => show win0_7.index t (0 : Fin 2) * 1024 + r.val = win0_7.index t (0 : Fin 2) * 1024 + 1 * r.val; omega
  | ⟨1, _⟩ => show win0_7.index t (1 : Fin 2) = (win0_7.index t (1 : Fin 2) * 1024 + 1 * o.val) / 1024; omega
  | ⟨2, _⟩ => show o.val = (win0_7.index t (1 : Fin 2) * 1024 + 1 * o.val) % 1024; omega

/-! ## The array after the run -/

/-- An index of the output array is in point `t`'s block iff each coordinate is in the block's range on its axis. -/
theorem mem_blk (t : Fin cfg0.N) (i : S4096x16384.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v8).slice (win0_7.rect t)).set ↔ _
  rw [View.set_slice_whole, Rect.mem_set_unit]
  exact Iff.rfl

/-- The 64 blocks cover the output array: `(i₀, i₁)` lies in the block of batch tile `i₀ / 1024` and part `i₁ / 1024`. -/
theorem cover (i : S4096x16384.Idx) : ∃ t : Fin cfg0.N, (cfg0.win 7).flush t = true ∧ i ∈ ((cfg0.win 7).blk t).view.set := by
  have hi0 : (i 0).val < 4096 := (i 0).isLt
  have hi1 : (i 1).val < 16384 := (i 1).isLt
  obtain ⟨t, ht⟩ := idx_onto ⟨(i 0).val / 1024, by omega⟩ ⟨(i 1).val / 1024, by omega⟩
  have q0 : win0_7.index t (0 : Fin 2) = (i 0).val / 1024 := congrFun ht 0
  have q1 : win0_7.index t (1 : Fin 2) = (i 1).val / 1024 := congrFun ht 1
  refine ⟨t, flush0_7 t, ?_⟩
  rw [mem_blk]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 1024 ≤ (i 1).val ∧ (i 1).val < win0_7.index t (1 : Fin 2) * 1024 + 1024; omega

/-- THE OUTPUT ARRAY after the run is the merged specification. -/
theorem final (hpre : Cert.Pre_KernelIdeal m) (c : Dev nD) : (dats m 0 c).arrAt 7 cfg0.N = flat m c :=
  (dats m 0 c).arrAt_eq_of_cover 7 (flat m c) (fun t _ => flushed_eq m hpre c t) (cover)

/-! ## The host line after the region, and the run -/

/-- The program's result, the output array with its columns split `16384 → [16, 1024]`, is the specification. -/
theorem result_eq (hpre : Cert.Pre_KernelIdeal m) (c : Dev nD) :
    Pipeline.afterTail₀ cfgs (dats m) 0 (V0 m) [hostOps1] c main_v9 = spec m c := by
  have hw : Pipeline.withArrays (cfgs 0).spec c (V0 m c) (fun w => (dats m 0 c).arrAt w (cfgs 0).N) (Proc.devRef .tc main_v8)
      = flat m c :=
    (Pipeline.withArrays_arr spec0 launch0.win.arr_inj c _ _ 7).trans (final m hpre c)
  unfold Pipeline.afterTail₀
  show StableHlo.after hostOps1 _ (Proc.devRef .tc main_v9) = _
  after_results
  funext i
  obtain ⟨b, p, o, rfl⟩ : ∃ (b : Fin 4096) (p : Fin 16) (o : Fin 1024), i = ix3 b p o := ⟨i 0, i 1, i 2, eq_ix3 i⟩
  have hp := p.isLt
  have ho := o.isLt
  show shapeCast S4096x16x1024 (Pipeline.withArrays (cfgs 0).spec c (V0 m c) (fun w => (dats m 0 c).arrAt w (cfgs 0).N)
    (Proc.devRef .tc main_v8)) shapeCasts_S4096x16384_S4096x16x1024 (ix3 b p o) = _
  rw [hw, shapeCast_apply _ _ (ix3 b p o) (ix2 b (⟨p.val * 1024 + o.val, by omega⟩ : Fin 16384)) (by
    rw [Shape.rowMajor_val_two, Shape.rowMajor_val_three]
    show b.val * 16384 + (p.val * 1024 + o.val) = (b.val * 16 + p.val) * 1024 + o.val
    omega)]
  unfold flat
  congr 1
  funext a; apply Fin.ext
  match a with
  | ⟨0, _⟩ => rfl
  | ⟨1, _⟩ => show (p.val * 1024 + o.val) / 1024 = p.val; omega
  | ⟨2, _⟩ => show (p.val * 1024 + o.val) % 1024 = o.val; omega

/-- THE RUN, READ: under the precondition every weakly fair execution of the kernel program terminates with its result at
    the specification of the arguments, the arguments unchanged. -/
theorem run (hpre : Cert.Pre_KernelIdeal m) :
    θ_run defs (onTc (τ := τ) (main (F := Ideal))) ⟨m, fun _ => 0, ρ⟩ fun r => ∀ c : Dev nD,
      r.2.mem ((c : Thread nD τ).loc main_v9) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v9 (Pipeline.mem_restRefs_of main_v9 (by decide) (by decide))).trans (result_eq m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).1 6).trans (((dats m 0 c).arrAt_in 6 rfl _).trans ((A_eq m c 6).trans (V_main_arg5 m c))),
      ((h c).2 main_arg6 (Pipeline.mem_restRefs_of main_arg6 (by decide) (by decide))).trans (W_main_arg6 m (dats m) c)⟩)
    (run_main m ρ)

end Cert.KernelValue

end
-- ==== Proof.lean ====
/-
  The certificate of a per-part table lookup followed by a two-layer perceptron.

  Both programs take `hashes : i32[4096, 16]`, a flat table `emb : f32[4112, 768]` made of 16 parts of 257 rows, the two
  layers `W1, b1, W2, b2` and a positional array `pe : f32[16, 1024]`, and return `f32[4096, 16, 1024]`.  Over the
  extended reals both compute

      out (b, p, o) = (Σ_j max (Σ_v emb (257·p + hashes (b,p), v) · W1 (v, j) + b1 j) 0 · W2 (j, o)) + b2 o + pe (p, o)

  (`Cert.PartTableMlp.out`), provided every word of `hashes` is a row of a part's own table, `0 ≤ hashes (b, p) ≤ 256`,
  which the precondition states.

  * The reference adds `257·p` to the word, wraps a negative sum round, and gathers that row of the flat table; in the
    range nothing wraps and nothing is clamped (`Cert.ReferenceValue.result_eq`).
  * The kernel splits the table into its parts, pads each to 384 rows with zeros, and multiplies the part's block by the
    one-hot matrix of the words.  The one-hot row against the table block returns the row the word names — in the extended
    reals `0 · x = 0` for every `x`, so nothing is asked of the other rows — and for a word at most 256 that row is one of
    the part's own, never a padding row (`Cert.KernelBody.pay_eq_out`).  Each of the 64 grid points writes one
    `[1024, 1024]` block of a `[4096, 16384]` array; the blocks tile it, and the last host line splits its columns into
    `[16, 1024]` (`Cert.KernelValue.run`).
  * Changes of float format are the identity on extended reals, so the kernel's narrowed weights are the arguments.

  The three frames are the generated ones (the reference's is its generated run with the result dropped); the ideal pass
  rewrote nothing, so `preserves` is trivial.
-/
import proofs.«402789_j59940563583540_2_alg».proof.Defs
import proofs.«402789_j59940563583540_2_alg».proof.Proof.Gen.Kernel
import proofs.«402789_j59940563583540_2_alg».proof.Proof.Gen.Kernel.Skeleton
import proofs.«402789_j59940563583540_2_alg».proof.Proof.Gen.Kernel.Launch
import proofs.«402789_j59940563583540_2_alg».proof.Proof.Gen.Kernel.Points
import proofs.«402789_j59940563583540_2_alg».proof.Proof.Gen.Kernel.Frame
import proofs.«402789_j59940563583540_2_alg».proof.Proof.Gen.KernelIdeal
import proofs.«402789_j59940563583540_2_alg».proof.Proof.Gen.KernelIdeal.Skeleton
import proofs.«402789_j59940563583540_2_alg».proof.Proof.Gen.KernelIdeal.Launch
import proofs.«402789_j59940563583540_2_alg».proof.Proof.Gen.KernelIdeal.Points
import proofs.«402789_j59940563583540_2_alg».proof.Proof.Gen.KernelIdeal.Frame
import proofs.«402789_j59940563583540_2_alg».proof.Proof.Gen.ReferenceIdeal
import proofs.«402789_j59940563583540_2_alg».proof.Proof.Gen.ReferenceIdeal.Run
import proofs.«402789_j59940563583540_2_alg».proof.Proof.Gen.ReferenceIdeal.Read
import proofs.«402789_j59940563583540_2_alg».proof.Proof.Gen.Pre_finite_inputs
import proofs.«402789_j59940563583540_2_alg».proof.Proof.HashRange
import proofs.«402789_j59940563583540_2_alg».proof.Proof.ReferenceValue
import proofs.«402789_j59940563583540_2_alg».proof.Proof.KernelValue
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end at the specification of the (agreeing) arguments. -/
theorem algebraic : Cert.algebraic_KernelIdeal_ReferenceIdeal := by
  intro m ρ m' ρ' hpre hagree
  refine ⟨fun c => Cert.KernelValue.spec m c, Cert.KernelValue.run m ρ hpre, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6⟩ := hagree c
  rw [Cert.ReferenceIdeal.Read.val_main_v24_eq, g0, g1, g2, g3, g4, g5, g6]
  exact Cert.ReferenceValue.result_eq _ _ _ _ _ _ _ (fun b p => Cert.HashRange.toNat_le m hpre c b p)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
